-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_arg3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_arg3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S_ : Shape := ⟨0, ![]⟩

class Facts : Prop where
  bcast_S_S8x256x640 : S_.BroadcastsInDim S8x256x640 (![] : Fin 0 → Fin S8x256x640.rank)
  reducesTo_S8x256x640_S_d0_1_2 : S8x256x640.ReducesTo [0, 1, 2] S_
  h_S_ : 0 < S_.numel
  bcast_S_S8x64x640 : S_.BroadcastsInDim S8x64x640 (![] : Fin 0 → Fin S8x64x640.rank)
  reducesTo_S8x64x640_S_d0_1_2 : S8x64x640.ReducesTo [0, 1, 2] S_
  bcast_S_S1024x1280 : S_.BroadcastsInDim S1024x1280 (![] : Fin 0 → Fin S1024x1280.rank)
  reducesTo_S1024x1280_S_d0_1 : S1024x1280.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x640 .f32) (main_arg1 : IVec S8 32) (main_arg2 : FVec F S8x64x640 .f32) (main_arg3 : IVec S8 32) (main_arg4 : FVec F S1024x1280 .f32) (main_arg5 : FVec F S1024 .f32) : IVec S_ 1 :=
  let main_v0 : FVec F S8x256x640 .f32 := Host.absf main_arg0
  let main_cst : FVec F S_ .f32 := constant S_ .f32 0x7F800000#32
  let main_v1 : FVec F S8x256x640 .f32 := broadcastInDim S8x256x640 ![] bcast_S_S8x256x640 main_cst
  let main_v2 : IVec S8x256x640 1 := cmpf .olt main_v0 main_v1
  let main_c : IVec S_ 1 := constantI S_ 1 1#1
  let main_v3 : IVec S_ 1 := (fun x v => Host.reduce IntOp.andi x v reducesTo_S8x256x640_S_d0_1_2 h_S_) main_v2 main_c
  let main_v4 : FVec F S8x64x640 .f32 := Host.absf main_arg2
  let main_cst_0 : FVec F S_ .f32 := constant S_ .f32 0x7F800000#32
  let main_v5 : FVec F S8x64x640 .f32 := broadcastInDim S8x64x640 ![] bcast_S_S8x64x640 main_cst_0
  let main_v6 : IVec S8x64x640 1 := cmpf .olt main_v4 main_v5
  let main_c_1 : IVec S_ 1 := constantI S_ 1 1#1
  let main_v7 : IVec S_ 1 := (fun x v => Host.reduce IntOp.andi x v reducesTo_S8x64x640_S_d0_1_2 h_S_) main_v6 main_c_1
  let main_v8 : IVec S_ 1 := andi main_v3 main_v7
  let main_v9 : FVec F S1024x1280 .f32 := Host.absf main_arg4
  let main_cst_2 : FVec F S_ .f32 := constant S_ .f32 0x7F800000#32
  let main_v10 : FVec F S1024x1280 .f32 := broadcastInDim S1024x1280 ![] bcast_S_S1024x1280 main_cst_2
  let main_v11 : IVec S1024x1280 1 := cmpf .olt main_v9 main_v10
  let main_c_3 : IVec S_ 1 := constantI S_ 1 1#1
  let main_v12 : IVec S_ 1 := (fun x v => Host.reduce IntOp.andi x v reducesTo_S1024x1280_S_d0_1 h_S_) main_v11 main_c_3
  let main_v13 : IVec S_ 1 := andi main_v8 main_v12
  let main_v14 : FVec F S1024 .f32 := Host.absf main_arg5
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S1024x640 : Shape := ⟨2, ![1024, 640]⟩
abbrev S640x1024 : Shape := ⟨2, ![640, 1024]⟩
abbrev S8x256x1024 : Shape := ⟨3, ![8, 256, 1024]⟩
abbrev S1x256x640 : Shape := ⟨3, ![1, 256, 640]⟩
abbrev S1x256x1024 : Shape := ⟨3, ![1, 256, 1024]⟩
abbrev S256x640 : Shape := ⟨2, ![256, 640]⟩
abbrev S256x1024 : Shape := ⟨2, ![256, 1024]⟩
abbrev S8x64x1024 : Shape := ⟨3, ![8, 64, 1024]⟩
abbrev S1x64x640 : Shape := ⟨3, ![1, 64, 640]⟩
abbrev S1x64x1024 : Shape := ⟨3, ![1, 64, 1024]⟩
abbrev S64x640 : Shape := ⟨2, ![64, 640]⟩
abbrev S64x1024 : Shape := ⟨2, ![64, 1024]⟩
abbrev S8x256x64x1024 : Shape := ⟨4, ![8, 256, 64, 1024]⟩
abbrev S1x16x1024 : Shape := ⟨3, ![1, 16, 1024]⟩
abbrev S1x16x64x1024 : Shape := ⟨4, ![1, 16, 64, 1024]⟩
abbrev S16x1024 : Shape := ⟨2, ![16, 1024]⟩
abbrev S16x1x1024 : Shape := ⟨3, ![16, 1, 1024]⟩
abbrev S16x64x1024 : Shape := ⟨3, ![16, 64, 1024]⟩
abbrev S1x1x1024 : Shape := ⟨3, ![1, 1, 1024]⟩
abbrev S131072x1024 : Shape := ⟨2, ![131072, 1024]⟩

abbrev nBuf : Space → Nat
  | .hbm => 14
  | .vmem => 17
  | .smem => 0
  | _ => 0

abbrev bufTy : (tb : Table) → Fin (tcTables nBuf tb) → BufTy
  | .hbm, ⟨0, _⟩ => ⟨S8x256x640, .f32⟩
  | .hbm, ⟨1, _⟩ => ⟨S8, .i32⟩
  | .hbm, ⟨2, _⟩ => ⟨S8x64x640, .f32⟩
  | .hbm, ⟨3, _⟩ => ⟨S8, .i32⟩
  | .hbm, ⟨4, _⟩ => ⟨S1024x1280, .f32⟩
  | .hbm, ⟨5, _⟩ => ⟨S1024, .f32⟩
  | .hbm, ⟨6, _⟩ => ⟨S1024x640, .f32⟩
  | .hbm, ⟨7, _⟩ => ⟨S1024x640, .f32⟩
  | .hbm, ⟨8, _⟩ => ⟨S640x1024, .f32⟩
  | .hbm, ⟨9, _⟩ => ⟨S640x1024, .f32⟩
  | .hbm, ⟨10, _⟩ => ⟨S8x256x1024, .f32⟩
  | .hbm, ⟨11, _⟩ => ⟨S8x64x1024, .f32⟩
  | .hbm, ⟨12, _⟩ => ⟨S8x256x64x1024, .f32⟩
  | .hbm, ⟨13, _⟩ => ⟨S131072x1024, .f32⟩
  | .local _ .vmem, ⟨0, _⟩ => ⟨S1x256x640, .f32⟩
  | .local _ .vmem, ⟨1, _⟩ => ⟨S1x256x640, .f32⟩
  | .local _ .vmem, ⟨2, _⟩ => ⟨S640x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x64x640, .f32⟩
  | .local _ .vmem, ⟨6, _⟩ => ⟨S1x64x640, .f32⟩
  | .local _ .vmem, ⟨7, _⟩ => ⟨S640x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x16x1024, .f32⟩
  | .local _ .vmem, ⟨11, _⟩ => ⟨S1x16x1024, .f32⟩
  | .local _ .vmem, ⟨12, _⟩ => ⟨S1x64x1024, .f32⟩
  | .local _ .vmem, ⟨13, _⟩ => ⟨S1x64x1024, .f32⟩
  | .local _ .vmem, ⟨14, _⟩ => ⟨S1024, .f32⟩
  | .local _ .vmem, ⟨15, _⟩ => ⟨S1x16x64x1024, .f32⟩
  | .local _ .vmem, ⟨16, _⟩ => ⟨S1x16x64x1024, .f32⟩
  | _, _ => ⟨S8x256x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S640x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x640 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S640x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1x64x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage2_0 : Fin 2 → Memref sig .tc .vmem S1x16x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x16x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  slices_S1024x1280_S1024x640_0_0 : S1024x1280.Slices ![0, 0] S1024x640
  slices_S1024x1280_S1024x640_0_640 : S1024x1280.Slices ![0, 640] S1024x640
  transposes_S1024x640_S640x1024_1_0 : S1024x640.Transposes [1, 0] S640x1024
  inb_S1x256x640_S1x256x640_0_0_0 : ∀ a, (![0, 0, 0] : Fin 3 → Nat) a + S1x256x640.size a ≤ S1x256x640.size a
  h_S1x256x640 : 0 < S1x256x640.numel
  shapeCasts_S1x256x640_S256x640 : S1x256x640.ShapeCasts S256x640
  bitsLt_bf16_f32 : FTy.bits .bf16 < FTy.bits .f32
  inb_S640x1024_S640x1024_0_0 : ∀ a, (![0, 0] : Fin 2 → Nat) a + S640x1024.size a ≤ S640x1024.size a
  h_S640x1024 : 0 < S640x1024.numel
  shapeCasts_S640x1024_S640x1024 : S640x1024.ShapeCasts S640x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  inb_S1x64x640_S1x64x640_0_0_0 : ∀ a, (![0, 0, 0] : Fin 3 → Nat) a + S1x64x640.size a ≤ S1x64x640.size a
  h_S1x64x640 : 0 < S1x64x640.numel
  shapeCasts_S1x64x640_S64x640 : S1x64x640.ShapeCasts S64x640
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  inb_S1024_S1024_0 : ∀ a, (![0] : Fin 1 → Nat) a + S1024.size a ≤ S1024.size a
  h_S1024 : 0 < S1024.numel
  shapeCasts_S16x1024_S16x1x1024 : S16x1024.ShapeCasts S16x1x1024
  broadcasts_S16x1x1024_S16x64x1024 : S16x1x1024.Broadcasts S16x64x1024
  broadcasts_S1x64x1024_S16x64x1024 : S1x64x1024.Broadcasts S16x64x1024
  shapeCasts_S1024_S1x1x1024 : S1024.ShapeCasts S1x1x1024
  broadcasts_S1x1x1024_S16x64x1024 : S1x1x1024.Broadcasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  shapeCasts_S8x256x64x1024_S131072x1024 : S8x256x64x1024.ShapeCasts S131072x1024
  dot_S256x640_S640x1024_S256x1024_1_0_0_1_n_n_wf : DotDims.WF S256x640 S640x1024 S256x1024 [1] [0] [0] [1] [] []
  dot_S64x640_S640x1024_S64x1024_1_0_0_1_n_n_wf : DotDims.WF S64x640 S640x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x640.size a ≤ S8x256x640.size a
  hwx0_0 : ∀ i : grid0.Coords, EltTy.bits .f32 = 32 ∨ (Rect.block (s := S8x256x640) S1x256x640.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S640x1024.size a ≤ S640x1024.size a
  hwx0_1 : ∀ i : grid0.Coords, EltTy.bits .f32 = 32 ∨ (Rect.block (s := S640x1024) S640x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1024.size a ≤ S8x256x1024.size a
  hwx0_2 : ∀ i : grid0.Coords, EltTy.bits .f32 = 32 ∨ (Rect.block (s := S8x256x1024) S1x256x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x640.size a ≤ S8x64x640.size a
  hwx1_0 : ∀ i : grid1.Coords, EltTy.bits .f32 = 32 ∨ (Rect.block (s := S8x64x640) S1x64x640.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S640x1024.size a ≤ S640x1024.size a
  hwx1_1 : ∀ i : grid1.Coords, EltTy.bits .f32 = 32 ∨ (Rect.block (s := S640x1024) S640x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x1024.size a ≤ S8x64x1024.size a
  hwx1_2 : ∀ i : grid1.Coords, EltTy.bits .f32 = 32 ∨ (Rect.block (s := S8x64x1024) S1x64x1024.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x16x1024.size a ≤ S8x256x1024.size a
  hwx2_0 : ∀ i : grid2.Coords, EltTy.bits .f32 = 32 ∨ (Rect.block (s := S8x256x1024) S1x16x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x64x1024.size a ≤ S8x64x1024.size a
  hwx2_1 : ∀ i : grid2.Coords, EltTy.bits .f32 = 32 ∨ (Rect.block (s := S8x64x1024) S1x64x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x16x64x1024.size a ≤ S8x256x64x1024.size a
  hwx2_3 : ∀ i : grid2.Coords, EltTy.bits .f32 = 32 ∨ (Rect.block (s := S8x256x64x1024) S1x16x64x1024.size (cc2_transform_3 i) (hinb2_3 i)).WholeWords (EltTy.packing .f32)

variable [Facts₀]

def dot_S256x640_S640x1024_S256x1024_1_0_0_1_n_n : DotDims S256x640 S640x1024 S256x1024 where
  lhsContracting := [1]
  rhsContracting := [0]
  lhsNonContracting := [0]
  rhsNonContracting := [1]
  lhsBatch := []
  rhsBatch := []
  wf := dot_S256x640_S640x1024_S256x1024_1_0_0_1_n_n_wf
def dot_S64x640_S640x1024_S64x1024_1_0_0_1_n_n : DotDims S64x640 S640x1024 S64x1024 where
  lhsContracting := [1]
  rhsContracting := [0]
  lhsNonContracting := [0]
  rhsNonContracting := [1]
  lhsBatch := []
  rhsBatch := []
  wf := dot_S64x640_S640x1024_S64x1024_1_0_0_1_n_n_wf

abbrev win0_0 : Pipeline.Window sig grid0 :=
  Pipeline.Window.ofSpec (Memref.whole main_arg0) S1x256x640.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S640x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x256x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S1x64x640.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S640x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x64x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v4) S1x16x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x16x64x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x256x640 : Shape := ⟨3, ![8, 256, 640]⟩
abbrev S8 : Shape := ⟨1, ![8]⟩
abbrev S8x64x640 : Shape := ⟨3, ![8, 64, 640]⟩
abbrev S1024x1280 : Shape := ⟨2, ![1024, 1280]⟩
abbrev S1024 : Shape := ⟨1, ![1024]⟩
abbrev S8x256x1x640 : Shape := ⟨4, ![8, 256, 1, 640]⟩
abbrev S8x256x64x640 : Shape := ⟨4, ![8, 256, 64, 640]⟩
abbrev S8x1x64x640 : Shape := ⟨4, ![8, 1, 64, 640]⟩
abbrev S8x256x64x1280 : Shape := ⟨4, ![8, 256, 64, 1280]⟩
abbrev S131072x1280 : Shape := ⟨2, ![131072, 1280]⟩
abbrev S_ : Shape := ⟨0, ![]⟩
abbrev S1280x1024 : Shape := ⟨2, ![1280, 1024]⟩
abbrev S131072x1024 : Shape := ⟨2, ![131072, 1024]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8x256x640, .f32⟩
  | .hbm, ⟨1, _⟩ => ⟨S8, .i32⟩
  | .hbm, ⟨2, _⟩ => ⟨S8x64x640, .f32⟩
  | .hbm, ⟨3, _⟩ => ⟨S8, .i32⟩
  | .hbm, ⟨4, _⟩ => ⟨S1024x1280, .f32⟩
  | .hbm, ⟨5, _⟩ => ⟨S1024, .f32⟩
  | .hbm, ⟨6, _⟩ => ⟨S8x256x1x640, .f32⟩
  | .hbm, ⟨7, _⟩ => ⟨S8x256x64x640, .f32⟩
  | .hbm, ⟨8, _⟩ => ⟨S8x1x64x640, .f32⟩
  | .hbm, ⟨9, _⟩ => ⟨S8x256x64x640, .f32⟩
  | .hbm, ⟨10, _⟩ => ⟨S8x256x64x1280, .f32⟩
  | .hbm, ⟨11, _⟩ => ⟨S131072x1280, .f32⟩
  | .hbm, ⟨12, _⟩ => ⟨S_, .f32⟩
  | .hbm, ⟨13, _⟩ => ⟨S131072x1280, .f32⟩
  | .hbm, ⟨14, _⟩ => ⟨S131072x1280, .f32⟩
  | .hbm, ⟨15, _⟩ => ⟨S1280x1024, .f32⟩
  | .hbm, ⟨16, _⟩ => ⟨S131072x1024, .f32⟩
  | .hbm, ⟨17, _⟩ => ⟨S1x1024, .f32⟩
  | .hbm, ⟨18, _⟩ => ⟨S131072x1024, .f32⟩
  | .hbm, ⟨19, _⟩ => ⟨S131072x1024, .f32⟩
  | _, _ => ⟨S8x256x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩

abbrev nD : Nat := 1
abbrev τ : Topo := Topo.v7x

variable {F : FTy → Type} [FloatOps F]

class Facts₀ : Prop where
  bcast_S8x256x640_S8x256x1x640_0_1_3 : S8x256x640.BroadcastsInDim S8x256x1x640 (![0, 1, 3] : Fin 3 → Fin S8x256x1x640.rank)
  bcast_S8x256x1x640_S8x256x64x640_0_1_2_3 : S8x256x1x640.BroadcastsInDim S8x256x64x640 (![0, 1, 2, 3] : Fin 4 → Fin S8x256x64x640.rank)
  bcast_S8x64x640_S8x1x64x640_0_2_3 : S8x64x640.BroadcastsInDim S8x1x64x640 (![0, 2, 3] : Fin 3 → Fin S8x1x64x640.rank)
  bcast_S8x1x64x640_S8x256x64x640_0_1_2_3 : S8x1x64x640.BroadcastsInDim S8x256x64x640 (![0, 1, 2, 3] : Fin 4 → Fin S8x256x64x640.rank)
  concatenates_S8x256x64x640_S8x256x64x640_S8x256x64x1280_d3 : Shape.Concatenates [S8x256x64x640, S8x256x64x640] S8x256x64x1280 3
  shapeCasts_S8x256x64x1280_S131072x1280 : S8x256x64x1280.ShapeCasts S131072x1280
  bcast_S_S131072x1280 : S_.BroadcastsInDim S131072x1280 (![] : Fin 0 → Fin S131072x1280.rank)
  transposes_S1024x1280_S1280x1024_1_0 : S1024x1280.Transposes [1, 0] S1280x1024
  bcast_S1024_S1x1024_1 : S1024.BroadcastsInDim S1x1024 (![1] : Fin 1 → Fin S1x1024.rank)
  bcast_S1x1024_S131072x1024_0_1 : S1x1024.BroadcastsInDim S131072x1024 (![0, 1] : Fin 2 → Fin S131072x1024.rank)
  dot_S131072x1280_S1280x1024_S131072x1024_1_0_0_1_n_n_wf : DotDims.WF S131072x1280 S1280x1024 S131072x1024 [1] [0] [0] [1] [] []

variable [Facts₀]

def dot_S131072x1280_S1280x1024_S131072x1024_1_0_0_1_n_n : DotDims S131072x1280 S1280x1024 S131072x1024 where
  lhsContracting := [1]
  rhsContracting := [0]
  lhsNonContracting := [0]
  rhsNonContracting := [1]
  lhsBatch := []
  rhsBatch := []
  wf := dot_S131072x1280_S1280x1024_S131072x1024_1_0_0_1_n_n_wf

class Facts : Prop extends Facts₀ where

variable [Facts]
-- ==== Proof.Spec.lean ====
/-
  The joiner of a transducer, as one function of its four float inputs.

  For a batch entry b, an encoder frame t and a target position u, the joiner concatenates the encoder
  vector x0[b, t, :] (640 numbers) with the prediction vector x2[b, u, :] (640 numbers), applies max(·, 0)
  to each of the 1280 numbers, multiplies by the weight matrix x4 (1024 rows of 1280 numbers) and adds the
  bias x5.  Because max(·, 0) acts entry by entry and a sum over 1280 terms is the sum over its first 640
  terms plus the sum over its last 640, the output row is

      out[(b, t, u), v] = (Σ_d max(x0[b,t,d], 0) · x4[v, d] + Σ_d max(x2[b,u,d], 0) · x4[v, 640 + d]) + x5[v].

  The first sum does not depend on u and the second does not depend on t: each can be computed once per
  (b, t) and once per (b, u).  This file states that function (`joint`), the two partial products (`proj`),
  and the row numbering (b, t, u) ↦ (b · 256 + t) · 64 + u of the 131072 output rows.
-/
import Idealize.ShloMosaic.PureOps.Ideal
import Idealize.ShloMosaic.Lib.ValueIdx

noncomputable section

namespace Cert.Joiner

open Idealize.ShloMosaic Idealize.ShloMosaic.ValueIdx

/-- The float zero both programs compare against (the all-zero word, kept as a word). -/
abbrev zeroWord : EReal := Ideal.ofBits .f32 0x00000000#32

/-- max(·, 0) on the extended reals. -/
def relu (x : EReal) : EReal := max x zeroWord

/-- One stream's partial product: entry (b, r, v) is Σ_d max(x[b, r, d], 0) · w[d, v], for a stream of
    B batches of R rows and a 640 × 1024 matrix. -/
def proj {B R : Nat} (x : (⟨3, ![B, R, 640]⟩ : Shape).Idx → EReal) (w : (⟨2, ![640, 1024]⟩ : Shape).Idx → EReal)
    (b : Fin B) (r : Fin R) (v : Fin 1024) : EReal :=
  ∑ d : Fin 640, relu (x (ix3 b r d)) * w (ix2 d v)

/-- The last step: entry (b, t, u, v) is (s[b, t, v] + p[b, u, v]) + bias[v], each partial product spread over
    the axis it does not depend on. -/
def combine (s : (⟨3, ![8, 256, 1024]⟩ : Shape).Idx → EReal) (p : (⟨3, ![8, 64, 1024]⟩ : Shape).Idx → EReal)
    (bias : (⟨1, ![1024]⟩ : Shape).Idx → EReal) : (⟨4, ![8, 256, 64, 1024]⟩ : Shape).Idx → EReal := fun j =>
  (s (ix3 (j 0) (j 1) (j 3)) + p (ix3 (j 0) (j 2) (j 3))) + bias (ix1 (j 3))

/-- Column d of the left half of a 1280-column matrix. -/
abbrev leftCol (d : Fin 640) : Fin 1280 := ⟨d.val, by have := d.isLt; omega⟩
/-- Column d of the right half of a 1280-column matrix. -/
abbrev rightCol (d : Fin 640) : Fin 1280 := ⟨640 + d.val, by have := d.isLt; omega⟩

/-- The batch entry of output row r = (b · 256 + t) · 64 + u. -/
abbrev rowB (r : Fin 131072) : Fin 8 := ⟨r.val / 16384, by have := r.isLt; omega⟩
/-- Its encoder frame. -/
abbrev rowT (r : Fin 131072) : Fin 256 := ⟨r.val / 64 % 256, by omega⟩
/-- Its target position. -/
abbrev rowU (r : Fin 131072) : Fin 64 := ⟨r.val % 64, by omega⟩

/-- The joiner's output, row (b, t, u), column v: the encoder stream's product with the left half of the
    weights, plus the prediction stream's product with the right half, plus the bias. -/
def joint (x0 : (⟨3, ![8, 256, 640]⟩ : Shape).Idx → EReal) (x2 : (⟨3, ![8, 64, 640]⟩ : Shape).Idx → EReal)
    (x4 : (⟨2, ![1024, 1280]⟩ : Shape).Idx → EReal) (x5 : (⟨1, ![1024]⟩ : Shape).Idx → EReal) :
    (⟨2, ![131072, 1024]⟩ : Shape).Idx → EReal := fun i =>
  ((∑ d : Fin 640, relu (x0 (ix3 (rowB (i 0)) (rowT (i 0)) d)) * x4 (ix2 (i 1) (leftCol d)))
    + ∑ d : Fin 640, relu (x2 (ix3 (rowB (i 0)) (rowU (i 0)) d)) * x4 (ix2 (i 1) (rightCol d)))
  + x5 (ix1 (i 1))

end Cert.Joiner

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibLeadingUnit.lean ====
/-
  A block of a rank-3 array taken one slab at a time has shape [1, a, b]; a kernel body drops that leading unit
  axis before it computes on the [a, b] matrix and puts it back before it stores. Both shape casts move no
  element: the row-major position of (0, p, q) in [1, a, b] is p * b + q, the position of (p, q) in [a, b].
  Stated here for any sizes and any element type, read at an index given by its coordinates.
-/
import Idealize.ShloMosaic.Lib.Pipeline.Value
import Idealize.ShloMosaic.Lib.ValueIdx

noncomputable section

namespace Cert.LeadingUnit

open Idealize.ShloMosaic Idealize.ShloMosaic.ValueIdx

variable {α : Type} {a b : Nat}

/-- Row-major position of (0, p, q) in [1, a, b] and of (p, q) in [a, b] are the same number. -/
theorem rowMajor_lead (p : Fin a) (q : Fin b) :
    ((⟨3, ![1, a, b]⟩ : Shape).rowMajor (ix3 (0 : Fin 1) p q)).val = ((⟨2, ![a, b]⟩ : Shape).rowMajor (ix2 p q)).val := by
  rw [Shape.rowMajor_val_three, Shape.rowMajor_val_two]
  show (((0 : Fin 1) : ℕ) * (![1, a, b] : Fin 3 → ℕ) 1 + (p : ℕ)) * (![1, a, b] : Fin 3 → ℕ) 2 + (q : ℕ)
    = (p : ℕ) * (![a, b] : Fin 2 → ℕ) 1 + (q : ℕ)
  simp

/-- Dropping the leading unit axis: the [a, b] matrix at (p, q) is the [1, a, b] slab at (0, p, q). -/
theorem dropLead_apply (v : (⟨3, ![1, a, b]⟩ : Shape).Idx → α) (h : (⟨3, ![1, a, b]⟩ : Shape).ShapeCasts ⟨2, ![a, b]⟩)
    (p : Fin a) (q : Fin b) : shapeCast ⟨2, ![a, b]⟩ v h (ix2 p q) = v (ix3 (0 : Fin 1) p q) :=
  shapeCast_apply v h (ix2 p q) (ix3 (0 : Fin 1) p q) (rowMajor_lead p q)

/-- Putting the leading unit axis back: the [1, a, b] slab at (0, p, q) is the [a, b] matrix at (p, q). -/
theorem addLead_apply (v : (⟨2, ![a, b]⟩ : Shape).Idx → α) (h : (⟨2, ![a, b]⟩ : Shape).ShapeCasts ⟨3, ![1, a, b]⟩)
    (p : Fin a) (q : Fin b) : shapeCast ⟨3, ![1, a, b]⟩ v h (ix3 (0 : Fin 1) p q) = v (ix2 p q) :=
  shapeCast_apply v h (ix3 (0 : Fin 1) p q) (ix2 p q) (rowMajor_lead p q).symm

end Cert.LeadingUnit

end
-- ==== Proof.Region0.lean ====
import proofs.«167541_j83133386981839_1_alg».proof.Proof.Gen.KernelIdeal.Frame
import proofs.«167541_j83133386981839_1_alg».proof.Proof.Spec
import proofs.«167541_j83133386981839_1_alg».proof.Proof.LibPlainDot
import proofs.«167541_j83133386981839_1_alg».proof.Proof.LibLeadingUnit
import Idealize.ShloMosaic.Lib.Pipeline.Value
import Idealize.ShloMosaic.Lib.ValueIdx
import Idealize.ShloMosaic.PureOps.Ideal.Laws

set_option maxRecDepth 16384

noncomputable section

/-!
  The first two regions of the kernel program each multiply one stream by one half of the weights: a grid of 8
  points, point t holding batch entry t's [R, 640] slab of the stream and the whole [640, 1024] matrix, and
  writing back batch entry t's [R, 1024] slab of the product of max(slab, 0) with the matrix.  This file reads
  region 0 (the encoder stream, R = 256): the slab a point writes back, entry by entry, is `proj` of the two
  arrays the region was entered with; the eight slabs tile the output array; so the array after the region is
  `proj` of the two input arrays, whatever they hold.
-/

namespace Cert.KernelIdeal.Stream0

open Cert.KernelIdeal Cert.KernelIdeal.Gen Cert.Joiner
open Idealize.ShloMosaic Idealize.ShloMosaic.TcCoe Idealize.ShloMosaic.ValueIdx Idealize.SL.Sem
open Idealize.ShloMosaic.Pipeline (Dat Cfg Window)

theorem zero3 : (![0, 0, 0] : Fin 3 → Nat) = fun _ => 0 := funext fun a => by fin_cases a <;> rfl
theorem zero2 : (![0, 0] : Fin 2 → Nat) = fun _ => 0 := funext fun a => by fin_cases a <;> rfl

/-- The matrix product's dimension numbers are the plain ones: rows by columns, one contracted axis. -/
theorem plain : PlainDot.IsPlain dot_S256x640_S640x1024_S256x1024_1_0_0_1_n_n := ⟨rfl, rfl, rfl, rfl, rfl, rfl⟩

/-- What the body stores, at row r and column v of its one slab: the sum over the 640 contracted positions of
    max(x[0, r, d], 0) · w[d, v].  (The change of float format before the product is the identity on extended
    reals, and the product starts from the zero accumulator.) -/
theorem stored_apply (x : Vec Ideal S1x256x640 .f32) (w : Vec Ideal S640x1024 .f32) (r : Fin 256) (v : Fin 1024) :
    k0_pay1 (F := Ideal) x w (ix3 (0 : Fin 1) r v) = ∑ d : Fin 640, relu (x (ix3 (0 : Fin 1) r d)) * w (ix2 d v) := by
  unfold k0_pay1
  refine (Cert.LeadingUnit.addLead_apply _ _ r v).trans ?_
  refine (Ideal.matmul_constant_zero_apply dot_S256x640_S640x1024_S256x1024_1_0_0_1_n_n none _ _ (ix2 r v)).trans ?_
  refine (PlainDot.sum_contr plain _ _ r v).trans ?_
  refine Finset.sum_congr rfl fun d _ => ?_
  have e1 : shapeCast S256x640 x shapeCasts_S1x256x640_S256x640 (ix2 r d) = x (ix3 (0 : Fin 1) r d) :=
    Cert.LeadingUnit.dropLead_apply _ _ r d
  have e2 : shapeCast S640x1024 w shapeCasts_S640x1024_S640x1024 = w := shapeCast_self _ _
  show max (shapeCast S256x640 x shapeCasts_S1x256x640_S256x640 (ix2 r d)) zeroWord
      * shapeCast S640x1024 w shapeCasts_S640x1024_S640x1024 (ix2 d v) = _
  rw [e1, e2]
  rfl

/-- The printed index maps over the grid: the stream's slab and the output's slab move together along the batch
    axis and sit at block 0 on the others; the matrix is always block (0, 0). -/
theorem idx_facts : ∀ t : Fin cfg0.N, win0_0.index t (0 : Fin 3) = win0_2.index t (0 : Fin 3)
    ∧ win0_0.index t (1 : Fin 3) = 0 ∧ win0_0.index t (2 : Fin 3) = 0
    ∧ win0_1.index t (0 : Fin 2) = 0 ∧ win0_1.index t (1 : Fin 2) = 0
    ∧ win0_2.index t (1 : Fin 3) = 0 ∧ win0_2.index t (2 : Fin 3) = 0 ∧ win0_2.index t (0 : Fin 3) ≤ 7 :=
  (by decide +kernel : ∀ t : Fin grid0.N, _)

/-- Every batch entry is some point's. -/
theorem idx_onto : ∀ q : Fin 8, ∃ t : Fin cfg0.N, win0_2.index t (0 : Fin 3) = q.val :=
  (by decide +kernel : ∀ q : Fin 8, ∃ t : Fin grid0.N, win0_2.index t (0 : Fin 3) = q.val)

variable (V : (c : Dev nD) → (b : Ref sig .tc) → Buf (Elt Ideal) ((c : Thread nD τ).loc b))

/-- The region's two input arrays and its output function, at their literal types. -/
abbrev xArr (c : Dev nD) : S8x256x640.Idx → EReal := V c main_arg0
abbrev wArr (c : Dev nD) : S640x1024.Idx → EReal := V c main_v2
abbrev outFn (c : Dev nD) : S8x256x1024.Idx → EReal := fun j => proj (xArr V c) (wArr V c) (j 0) (j 1) (j 2)

/-- WHAT POINT t WRITES BACK is block t of `proj` of the arrays the region was entered with. -/
theorem flushed_eq (c : Dev nD) (t : Fin cfg0.N) :
    (dat0 (F := Ideal) V c).flushed 2 t = ((cfg0.win 2).blk t).view.read (Elt Ideal) (outFn V c) := by
  show (cfg0.win 2).cut (grid0.coords t) ((dat0 (F := Ideal) V c).after 2 t) = _
  rw [after0_2]
  unfold out0_2
  rw [View.canon_unit_zero zero3]
  simp only [View.ld_unit_zero (S := S1x256x640) zero3, View.ld_unit_zero (S := S640x1024) zero2]
  obtain ⟨e0, e1, e2, e3, e4, e5, e6, e7⟩ := idx_facts t
  refine funext fun (y : S1x256x1024.Idx) => ?_
  obtain ⟨a, r, v, rfl⟩ : ∃ (a : Fin 1) (r : Fin 256) (v : Fin 1024), y = ix3 a r v := ⟨y 0, y 1, y 2, eq_ix3 y⟩
  obtain rfl : a = 0 := Subsingleton.elim _ _
  show k0_pay1 (F := Ideal) (iblk0 V c 0 t) (iblk0 V c 1 t) (ix3 (0 : Fin 1) r v)
    = outFn V c (((cfg0.win 2).blk t).view.emb (ix3 (0 : Fin 1) r v))
  refine (stored_apply (iblk0 V c 0 t) (iblk0 V c 1 t) r v).trans ?_
  show _ = ∑ d : Fin 640, relu (xArr V c (ix3 ((((cfg0.win 2).blk t).view.emb (ix3 (0 : Fin 1) r v)) 0)
      ((((cfg0.win 2).blk t).view.emb (ix3 (0 : Fin 1) r v)) 1) d))
      * wArr V c (ix2 d ((((cfg0.win 2).blk t).view.emb (ix3 (0 : Fin 1) r v)) 2))
  refine Finset.sum_congr rfl fun d _ => ?_
  have hx : xArr V c (((cfg0.win 0).blk t).view.emb (ix3 (0 : Fin 1) r d))
      = xArr V c (ix3 ((((cfg0.win 2).blk t).view.emb (ix3 (0 : Fin 1) r v)) 0)
          ((((cfg0.win 2).blk t).view.emb (ix3 (0 : Fin 1) r v)) 1) d) :=
    congrArg (xArr V c) (funext fun ax => Fin.ext (by
      match ax with
      | ⟨0, _⟩ => show win0_0.index t (0 : Fin 3) * 1 + 1 * 0 = win0_2.index t (0 : Fin 3) * 1 + 1 * 0; omega
      | ⟨1, _⟩ => show win0_0.index t (1 : Fin 3) * 256 + 1 * r.val = win0_2.index t (1 : Fin 3) * 256 + 1 * r.val; omega
      | ⟨2, _⟩ => show win0_0.index t (2 : Fin 3) * 640 + 1 * d.val = d.val; omega))
  have hw : wArr V c (((cfg0.win 1).blk t).view.emb (ix2 d v))
      = wArr V c (ix2 d ((((cfg0.win 2).blk t).view.emb (ix3 (0 : Fin 1) r v)) 2)) :=
    congrArg (wArr V c) (funext fun ax => Fin.ext (by
      match ax with
      | ⟨0, _⟩ => show win0_1.index t (0 : Fin 2) * 640 + 1 * d.val = d.val; omega
      | ⟨1, _⟩ => show win0_1.index t (1 : Fin 2) * 1024 + 1 * v.val = win0_2.index t (2 : Fin 3) * 1024 + 1 * v.val; omega))
  show relu (xArr V c (((cfg0.win 0).blk t).view.emb (ix3 (0 : Fin 1) r d)))
      * wArr V c (((cfg0.win 1).blk t).view.emb (ix2 d v)) = _
  rw [hx, hw]

/-- An index of the output array is in point t's block iff each coordinate is in the block's range. -/
theorem mem_blk (t : Fin cfg0.N) (i : S8x256x1024.Idx) :
    i ∈ ((cfg0.win 2).blk t).view.set ↔ ∀ a : Fin 3, win0_2.index t a * S1x256x1024.size a ≤ (i a).val
      ∧ (i a).val < win0_2.index t a * S1x256x1024.size a + S1x256x1024.size a := by
  show i ∈ ((View.whole main_v4).slice (win0_2.rect t)).set ↔ _
  rw [View.set_slice_whole, Rect.mem_set_unit]
  exact Iff.rfl

/-- The eight slabs tile the output: entry (b, r, v) is in the block of the point at batch entry b. -/
theorem cover (i : S8x256x1024.Idx) :
    ∃ t : Fin cfg0.N, (cfg0.win 2).flush t = true ∧ i ∈ ((cfg0.win 2).blk t).view.set := by
  have h0 : (i 0).val < 8 := (i 0).isLt
  have h1 : (i 1).val < 256 := (i 1).isLt
  have h2 : (i 2).val < 1024 := (i 2).isLt
  obtain ⟨t, ht⟩ := idx_onto ⟨(i 0).val, h0⟩
  obtain ⟨e0, e1, e2, e3, e4, e5, e6, e7⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1
              have : win0_2.index t (0 : Fin 3) = (i 0).val := ht
              omega
  | ⟨1, _⟩ => show win0_2.index t (1 : Fin 3) * 256 ≤ (i 1).val ∧ (i 1).val < win0_2.index t (1 : Fin 3) * 256 + 256; omega
  | ⟨2, _⟩ => show win0_2.index t (2 : Fin 3) * 1024 ≤ (i 2).val ∧ (i 2).val < win0_2.index t (2 : Fin 3) * 1024 + 1024; omega

/-- THE OUTPUT ARRAY after the region: `proj` of the two arrays the region was entered with. -/
theorem final0 (c : Dev nD) :
    (dat0 (F := Ideal) V c).arrAt 2 cfg0.N
      = fun j : S8x256x1024.Idx => proj (V c main_arg0) (V c main_v2) (j 0) (j 1) (j 2) :=
  (dat0 (F := Ideal) V c).arrAt_eq_of_cover 2 (outFn V c) (fun t _ => flushed_eq V c t) cover

end Cert.KernelIdeal.Stream0

end
-- ==== Proof.Region1.lean ====
import proofs.«167541_j83133386981839_1_alg».proof.Proof.Gen.KernelIdeal.Frame
import proofs.«167541_j83133386981839_1_alg».proof.Proof.Spec
import proofs.«167541_j83133386981839_1_alg».proof.Proof.LibPlainDot
import proofs.«167541_j83133386981839_1_alg».proof.Proof.LibLeadingUnit
import Idealize.ShloMosaic.Lib.Pipeline.Value
import Idealize.ShloMosaic.Lib.ValueIdx
import Idealize.ShloMosaic.PureOps.Ideal.Laws

set_option maxRecDepth 16384

noncomputable section

/-!
  The first two regions of the kernel program each multiply one stream by one half of the weights: a grid of 8
  points, point t holding batch entry t's [R, 640] slab of the stream and the whole [640, 1024] matrix, and
  writing back batch entry t's [R, 1024] slab of the product of max(slab, 0) with the matrix.  This file reads
  region 1 (the prediction stream, R = 64): the slab a point writes back, entry by entry, is `proj` of the two
  arrays the region was entered with; the eight slabs tile the output array; so the array after the region is
  `proj` of the two input arrays, whatever they hold.
-/

namespace Cert.KernelIdeal.Stream1

open Cert.KernelIdeal Cert.KernelIdeal.Gen Cert.Joiner
open Idealize.ShloMosaic Idealize.ShloMosaic.TcCoe Idealize.ShloMosaic.ValueIdx Idealize.SL.Sem
open Idealize.ShloMosaic.Pipeline (Dat Cfg Window)

theorem zero3 : (![0, 0, 0] : Fin 3 → Nat) = fun _ => 0 := funext fun a => by fin_cases a <;> rfl
theorem zero2 : (![0, 0] : Fin 2 → Nat) = fun _ => 0 := funext fun a => by fin_cases a <;> rfl

/-- The matrix product's dimension numbers are the plain ones: rows by columns, one contracted axis. -/
theorem plain : PlainDot.IsPlain dot_S64x640_S640x1024_S64x1024_1_0_0_1_n_n := ⟨rfl, rfl, rfl, rfl, rfl, rfl⟩

/-- What the body stores, at row r and column v of its one slab: the sum over the 640 contracted positions of
    max(x[0, r, d], 0) · w[d, v].  (The change of float format before the product is the identity on extended
    reals, and the product starts from the zero accumulator.) -/
theorem stored_apply (x : Vec Ideal S1x64x640 .f32) (w : Vec Ideal S640x1024 .f32) (r : Fin 64) (v : Fin 1024) :
    k1_pay1 (F := Ideal) x w (ix3 (0 : Fin 1) r v) = ∑ d : Fin 640, relu (x (ix3 (0 : Fin 1) r d)) * w (ix2 d v) := by
  unfold k1_pay1
  refine (Cert.LeadingUnit.addLead_apply _ _ r v).trans ?_
  refine (Ideal.matmul_constant_zero_apply dot_S64x640_S640x1024_S64x1024_1_0_0_1_n_n none _ _ (ix2 r v)).trans ?_
  refine (PlainDot.sum_contr plain _ _ r v).trans ?_
  refine Finset.sum_congr rfl fun d _ => ?_
  have e1 : shapeCast S64x640 x shapeCasts_S1x64x640_S64x640 (ix2 r d) = x (ix3 (0 : Fin 1) r d) :=
    Cert.LeadingUnit.dropLead_apply _ _ r d
  have e2 : shapeCast S640x1024 w shapeCasts_S640x1024_S640x1024 = w := shapeCast_self _ _
  show max (shapeCast S64x640 x shapeCasts_S1x64x640_S64x640 (ix2 r d)) zeroWord
      * shapeCast S640x1024 w shapeCasts_S640x1024_S640x1024 (ix2 d v) = _
  rw [e1, e2]
  rfl

/-- The printed index maps over the grid: the stream's slab and the output's slab move together along the batch
    axis and sit at block 0 on the others; the matrix is always block (0, 0). -/
theorem idx_facts : ∀ t : Fin cfg1.N, win1_0.index t (0 : Fin 3) = win1_2.index t (0 : Fin 3)
    ∧ win1_0.index t (1 : Fin 3) = 0 ∧ win1_0.index t (2 : Fin 3) = 0
    ∧ win1_1.index t (0 : Fin 2) = 0 ∧ win1_1.index t (1 : Fin 2) = 0
    ∧ win1_2.index t (1 : Fin 3) = 0 ∧ win1_2.index t (2 : Fin 3) = 0 ∧ win1_2.index t (0 : Fin 3) ≤ 7 :=
  (by decide +kernel : ∀ t : Fin grid1.N, _)

/-- Every batch entry is some point's. -/
theorem idx_onto : ∀ q : Fin 8, ∃ t : Fin cfg1.N, win1_2.index t (0 : Fin 3) = q.val :=
  (by decide +kernel : ∀ q : Fin 8, ∃ t : Fin grid1.N, win1_2.index t (0 : Fin 3) = q.val)

variable (V : (c : Dev nD) → (b : Ref sig .tc) → Buf (Elt Ideal) ((c : Thread nD τ).loc b))

/-- The region's two input arrays and its output function, at their literal types. -/
abbrev xArr (c : Dev nD) : S8x64x640.Idx → EReal := V c main_arg2
abbrev wArr (c : Dev nD) : S640x1024.Idx → EReal := V c main_v3
abbrev outFn (c : Dev nD) : S8x64x1024.Idx → EReal := fun j => proj (xArr V c) (wArr V c) (j 0) (j 1) (j 2)

/-- WHAT POINT t WRITES BACK is block t of `proj` of the arrays the region was entered with. -/
theorem flushed_eq (c : Dev nD) (t : Fin cfg1.N) :
    (dat1 (F := Ideal) V c).flushed 2 t = ((cfg1.win 2).blk t).view.read (Elt Ideal) (outFn V c) := by
  show (cfg1.win 2).cut (grid1.coords t) ((dat1 (F := Ideal) V c).after 2 t) = _
  rw [after1_2]
  unfold out1_2
  rw [View.canon_unit_zero zero3]
  simp only [View.ld_unit_zero (S := S1x64x640) zero3, View.ld_unit_zero (S := S640x1024) zero2]
  obtain ⟨e0, e1, e2, e3, e4, e5, e6, e7⟩ := idx_facts t
  refine funext fun (y : S1x64x1024.Idx) => ?_
  obtain ⟨a, r, v, rfl⟩ : ∃ (a : Fin 1) (r : Fin 64) (v : Fin 1024), y = ix3 a r v := ⟨y 0, y 1, y 2, eq_ix3 y⟩
  obtain rfl : a = 0 := Subsingleton.elim _ _
  show k1_pay1 (F := Ideal) (iblk1 V c 0 t) (iblk1 V c 1 t) (ix3 (0 : Fin 1) r v)
    = outFn V c (((cfg1.win 2).blk t).view.emb (ix3 (0 : Fin 1) r v))
  refine (stored_apply (iblk1 V c 0 t) (iblk1 V c 1 t) r v).trans ?_
  show _ = ∑ d : Fin 640, relu (xArr V c (ix3 ((((cfg1.win 2).blk t).view.emb (ix3 (0 : Fin 1) r v)) 0)
      ((((cfg1.win 2).blk t).view.emb (ix3 (0 : Fin 1) r v)) 1) d))
      * wArr V c (ix2 d ((((cfg1.win 2).blk t).view.emb (ix3 (0 : Fin 1) r v)) 2))
  refine Finset.sum_congr rfl fun d _ => ?_
  have hx : xArr V c (((cfg1.win 0).blk t).view.emb (ix3 (0 : Fin 1) r d))
      = xArr V c (ix3 ((((cfg1.win 2).blk t).view.emb (ix3 (0 : Fin 1) r v)) 0)
          ((((cfg1.win 2).blk t).view.emb (ix3 (0 : Fin 1) r v)) 1) d) :=
    congrArg (xArr V c) (funext fun ax => Fin.ext (by
      match ax with
      | ⟨0, _⟩ => show win1_0.index t (0 : Fin 3) * 1 + 1 * 0 = win1_2.index t (0 : Fin 3) * 1 + 1 * 0; omega
      | ⟨1, _⟩ => show win1_0.index t (1 : Fin 3) * 64 + 1 * r.val = win1_2.index t (1 : Fin 3) * 64 + 1 * r.val; omega
      | ⟨2, _⟩ => show win1_0.index t (2 : Fin 3) * 640 + 1 * d.val = d.val; omega))
  have hw : wArr V c (((cfg1.win 1).blk t).view.emb (ix2 d v))
      = wArr V c (ix2 d ((((cfg1.win 2).blk t).view.emb (ix3 (0 : Fin 1) r v)) 2)) :=
    congrArg (wArr V c) (funext fun ax => Fin.ext (by
      match ax with
      | ⟨0, _⟩ => show win1_1.index t (0 : Fin 2) * 640 + 1 * d.val = d.val; omega
      | ⟨1, _⟩ => show win1_1.index t (1 : Fin 2) * 1024 + 1 * v.val = win1_2.index t (2 : Fin 3) * 1024 + 1 * v.val; omega))
  show relu (xArr V c (((cfg1.win 0).blk t).view.emb (ix3 (0 : Fin 1) r d)))
      * wArr V c (((cfg1.win 1).blk t).view.emb (ix2 d v)) = _
  rw [hx, hw]

/-- An index of the output array is in point t's block iff each coordinate is in the block's range. -/
theorem mem_blk (t : Fin cfg1.N) (i : S8x64x1024.Idx) :
    i ∈ ((cfg1.win 2).blk t).view.set ↔ ∀ a : Fin 3, win1_2.index t a * S1x64x1024.size a ≤ (i a).val
      ∧ (i a).val < win1_2.index t a * S1x64x1024.size a + S1x64x1024.size a := by
  show i ∈ ((View.whole main_v5).slice (win1_2.rect t)).set ↔ _
  rw [View.set_slice_whole, Rect.mem_set_unit]
  exact Iff.rfl

/-- The eight slabs tile the output: entry (b, r, v) is in the block of the point at batch entry b. -/
theorem cover (i : S8x64x1024.Idx) :
    ∃ t : Fin cfg1.N, (cfg1.win 2).flush t = true ∧ i ∈ ((cfg1.win 2).blk t).view.set := by
  have h0 : (i 0).val < 8 := (i 0).isLt
  have h1 : (i 1).val < 64 := (i 1).isLt
  have h2 : (i 2).val < 1024 := (i 2).isLt
  obtain ⟨t, ht⟩ := idx_onto ⟨(i 0).val, h0⟩
  obtain ⟨e0, e1, e2, e3, e4, e5, e6, e7⟩ := idx_facts t
  refine ⟨t, flush1_2 t, ?_⟩
  rw [mem_blk]
  intro a
  match a with
  | ⟨0, _⟩ => show win1_2.index t (0 : Fin 3) * 1 ≤ (i 0).val ∧ (i 0).val < win1_2.index t (0 : Fin 3) * 1 + 1
              have : win1_2.index t (0 : Fin 3) = (i 0).val := ht
              omega
  | ⟨1, _⟩ => show win1_2.index t (1 : Fin 3) * 64 ≤ (i 1).val ∧ (i 1).val < win1_2.index t (1 : Fin 3) * 64 + 64; omega
  | ⟨2, _⟩ => show win1_2.index t (2 : Fin 3) * 1024 ≤ (i 2).val ∧ (i 2).val < win1_2.index t (2 : Fin 3) * 1024 + 1024; omega

/-- THE OUTPUT ARRAY after the region: `proj` of the two arrays the region was entered with. -/
theorem final1 (c : Dev nD) :
    (dat1 (F := Ideal) V c).arrAt 2 cfg1.N
      = fun j : S8x64x1024.Idx => proj (V c main_arg2) (V c main_v3) (j 0) (j 1) (j 2) :=
  (dat1 (F := Ideal) V c).arrAt_eq_of_cover 2 (outFn V c) (fun t _ => flushed_eq V c t) cover

end Cert.KernelIdeal.Stream1

end
-- ==== Proof.LibUnitAxes.lean ====
/-
  Unit axes put into an array and spread out again, read at an index (general in the sizes and the element type).

  A matrix `[a, c]` recast as `[a, 1, c]` and broadcast to `[a, b, c]` repeats each row along the new middle axis:
  the entry `(i, j, k)` is the matrix's `(i, k)`. A matrix `[b, c]` recast as `[1, b, c]` and broadcast to
  `[a, b, c]` repeats the whole matrix along the new leading axis: the entry `(i, j, k)` is the matrix's `(j, k)`.
  A column `[b, 1]` recast as `[1, b, 1]` and broadcast to `[a, b, c]` gives every entry `(i, j, k)` the column's
  value at row `j`. A recast moves no element (equal row-major positions); a broadcast reads position `0` on each
  unit axis of its operand.
-/
import Idealize.ShloMosaic.Lib.ValueIdx
import Idealize.ShloMosaic.Lib.Pipeline.Value

noncomputable section

namespace Cert.Lib.UnitAxes

open Idealize.ShloMosaic Idealize.ShloMosaic.ValueIdx

variable {α : Type} {a b c : ℕ}

/-- `[a, c]` recast as `[a, 1, c]`, at `(i, u, k)`: the matrix at `(i, k)`. -/
theorem insertMiddle_apply (x : (⟨2, ![a, c]⟩ : Shape).Idx → α) (h : (⟨2, ![a, c]⟩ : Shape).ShapeCasts ⟨3, ![a, 1, c]⟩)
    (i : Fin a) (u : Fin 1) (k : Fin c) : shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- `[a, 1, c]` broadcast to `[a, b, c]`, at `(i, j, k)`: the operand at `(i, 0, k)`. -/
theorem spreadMiddle_apply (x : (⟨3, ![a, 1, c]⟩ : Shape).Idx → α) (h : (⟨3, ![a, 1, c]⟩ : Shape).Broadcasts ⟨3, ![a, b, c]⟩)
    (i : Fin a) (j : Fin b) (k : Fin c) : broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[1, b, c]` broadcast to `[a, b, c]`, at `(i, j, k)`: the operand at `(0, j, k)`. -/
theorem spreadLeading_apply (x : (⟨3, ![1, b, c]⟩ : Shape).Idx → α) (h : (⟨3, ![1, b, c]⟩ : Shape).Broadcasts ⟨3, ![a, b, c]⟩)
    (i : Fin a) (j : Fin b) (k : Fin c) : broadcastTo ⟨3, ![a, b, c]⟩ x h (ix3 i j k) = x (ix3 (0 : Fin 1) j k) := by
  refine broadcastTo_apply x h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- `[1, b, 1]` broadcast to `[a, b, c]`, at `(i, j, k)`: the operand at `(0, j, 0)`. -/
theorem spreadColumn_apply (x : (⟨3, ![1, b, 1]⟩ : Shape).Idx → α) (h : (⟨3, ![1, b, 1]⟩ : Shape).Broadcasts ⟨3, ![a, b, c]⟩)
    (i : Fin a) (j : Fin b) (k : Fin c) : broadcastTo ⟨3, ![a, b, c]⟩ x h (ix3 i j k) = x (ix3 (0 : Fin 1) j (0 : Fin 1)) := by
  refine broadcastTo_apply x h (ix3 i j k) (ix3 (0 : Fin 1) j (0 : Fin 1)) fun ax => ?_
  match ax with
  | ⟨0, _⟩ => rfl
  | ⟨1, _⟩ =>
    show j.val = if b = 1 then 0 else j.val
    split
    · have := j.isLt; omega
    · rfl
  | ⟨2, _⟩ => rfl

end Cert.Lib.UnitAxes

end
-- ==== Proof.Region2.lean ====
import proofs.«167541_j83133386981839_1_alg».proof.Proof.Gen.KernelIdeal.Frame
import proofs.«167541_j83133386981839_1_alg».proof.Proof.Spec
import proofs.«167541_j83133386981839_1_alg».proof.Proof.LibUnitAxes
import proofs.«167541_j83133386981839_1_alg».proof.Proof.LibLeadingUnit
import Idealize.ShloMosaic.Lib.Pipeline.Value
import Idealize.ShloMosaic.Lib.ValueIdx
import Idealize.ShloMosaic.PureOps.Ideal.Laws

set_option maxRecDepth 16384

noncomputable section

namespace Cert.KernelIdeal.Combine

open Cert.KernelIdeal Cert.KernelIdeal.Gen Cert.Joiner
open Idealize.ShloMosaic Idealize.ShloMosaic.TcCoe Idealize.ShloMosaic.ValueIdx Idealize.SL.Sem
open Idealize.ShloMosaic.Pipeline (Dat Cfg Window)

/-! ## Layout steps of the body, read at an index

The body recasts its [1,16,1024] and [1,64,1024] blocks as matrices, spreads the first along a new middle axis and
the second along a new leading axis, adds them, adds the bias spread over both leading axes, and recasts the
[16,64,1024] result as [1,16,64,1024]. A recast moves no element (equal row-major positions); a spread reads
position 0 on each unit axis of its operand. -/

section Layout
variable {α : Type} {a b c : ℕ}

/-- [a,b,c] recast as [1,a,b,c], at (0,i,j,k): the operand at (i,j,k). -/
theorem addLead3_apply (x : (⟨3, ![a, b, c]⟩ : Shape).Idx → α) (h : (⟨3, ![a, b, c]⟩ : Shape).ShapeCasts ⟨4, ![1, a, b, c]⟩)
    (i : Fin a) (j : Fin b) (k : Fin c) : shapeCast ⟨4, ![1, a, b, c]⟩ x h (ix4 (0 : Fin 1) i j k) = x (ix3 i j k) :=
  shapeCast_apply x h _ _ (by
    rw [Shape.rowMajor_val_three, Shape.rowMajor_val_four]
    show (i.val * b + j.val) * c + k.val = ((((0 : Fin 1) : ℕ) * a + i.val) * b + j.val) * c + k.val
    simp)

/-- [c] recast as [1,1,c], at (0,0,k): the operand at k. -/
theorem rowLift_apply (x : (⟨1, ![c]⟩ : Shape).Idx → α) (h : (⟨1, ![c]⟩ : Shape).ShapeCasts ⟨3, ![1, 1, c]⟩)
    (k : Fin c) : shapeCast ⟨3, ![1, 1, c]⟩ x h (ix3 (0 : Fin 1) (0 : Fin 1) k) = x (ix1 k) :=
  shapeCast_apply x h _ _ (by
    rw [Shape.rowMajor_val_one, Shape.rowMajor_val_three]
    show k.val = (((0 : Fin 1) : ℕ) * 1 + ((0 : Fin 1) : ℕ)) * c + k.val
    simp)

/-- [1,1,c] spread to [a,b,c], at (i,j,k): the operand at (0,0,k). -/
theorem spreadRow_apply (x : (⟨3, ![1, 1, c]⟩ : Shape).Idx → α) (h : (⟨3, ![1, 1, c]⟩ : Shape).Broadcasts ⟨3, ![a, b, c]⟩)
    (i : Fin a) (j : Fin b) (k : Fin c) : broadcastTo ⟨3, ![a, b, c]⟩ x h (ix3 i j k) = x (ix3 (0 : Fin 1) (0 : Fin 1) k) := by
  refine broadcastTo_apply x h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-- The body's stored value at (0, a, u, v) of its [1,16,64,1024] block: row a of the first block plus row u of the
    second, plus the bias, all at column v. -/
theorem pay_apply (x0 : S1x16x1024.Idx → EReal) (x1 : S1x64x1024.Idx → EReal) (x2 : S1024.Idx → EReal)
    (a : Fin 16) (u : Fin 64) (v : Fin 1024) :
    k2_pay1 (F := Ideal) x0 x1 x2 (ix4 (0 : Fin 1) a u v)
      = (x0 (ix3 (0 : Fin 1) a v) + x1 (ix3 (0 : Fin 1) u v)) + x2 (ix1 v) := by
  unfold k2_pay1
  rw [addLead3_apply, addf_apply, addf_apply, Cert.Lib.UnitAxes.spreadMiddle_apply, Cert.Lib.UnitAxes.insertMiddle_apply,
    Cert.LeadingUnit.dropLead_apply, Cert.Lib.UnitAxes.spreadLeading_apply, Cert.LeadingUnit.addLead_apply,
    Cert.LeadingUnit.dropLead_apply, spreadRow_apply, rowLift_apply]

variable (V : (c : Dev nD) → (b : Ref sig .tc) → Buf (Elt Ideal) ((c : Thread nD τ).loc b))

/-! ## The three input arrays and the function the output array ends at -/

/-- The first partial product as the region finds it. -/
abbrev sArr (c : Dev nD) : S8x256x1024.Idx → EReal := V c main_v4
/-- The second partial product as the region finds it. -/
abbrev pArr (c : Dev nD) : S8x64x1024.Idx → EReal := V c main_v5
/-- The bias as the region finds it. -/
abbrev bArr (c : Dev nD) : S1024.Idx → EReal := V c main_arg5
/-- The first input's block at point t. -/
abbrev sBlk (c : Dev nD) (t : Fin cfg2.N) : S1x16x1024.Idx → EReal := iblk2 V c 0 t
/-- The second input's block at point t. -/
abbrev pBlk (c : Dev nD) (t : Fin cfg2.N) : S1x64x1024.Idx → EReal := iblk2 V c 1 t
/-- The bias's block at point t. -/
abbrev bBlk (c : Dev nD) (t : Fin cfg2.N) : S1024.Idx → EReal := iblk2 V c 2 t
/-- What the output array ends holding. -/
abbrev outFn (c : Dev nD) : S8x256x64x1024.Idx → EReal := combine (sArr V c) (pArr V c) (bArr V c)

theorem hz1 : (![0] : Fin 1 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The block indices over the grid

Point t of the 8 × 16 grid has coordinates (t / 16, t % 16). The output's block index is (t / 16, t % 16, 0, 0);
the first input's is (t / 16, t % 16, 0), the second's (t / 16, 0, 0), the bias's (0). -/

theorem idx_facts : ∀ t : Fin cfg2.N,
    win2_3.index t (0 : Fin 4) = t.val / 16 ∧ win2_3.index t (1 : Fin 4) = t.val % 16
    ∧ win2_3.index t (2 : Fin 4) = 0 ∧ win2_3.index t (3 : Fin 4) = 0
    ∧ win2_0.index t (0 : Fin 3) = t.val / 16 ∧ win2_0.index t (1 : Fin 3) = t.val % 16
    ∧ win2_0.index t (2 : Fin 3) = 0
    ∧ win2_1.index t (0 : Fin 3) = t.val / 16 ∧ win2_1.index t (1 : Fin 3) = 0
    ∧ win2_1.index t (2 : Fin 3) = 0
    ∧ win2_2.index t (0 : Fin 1) = 0 :=
  (by decide +kernel : ∀ t : Fin grid2.N, _)

/-! ## Each input block read where the output's block says -/

/-- Row a, column v of the first input's block at point t is the first array at (t / 16, (t % 16) · 16 + a, v). -/
theorem read_s (c : Dev nD) (t : Fin cfg2.N) (a : Fin 16) (v : Fin 1024) (i : S8x256x1024.Idx)
    (h0 : (i 0).val = t.val / 16) (h1 : (i 1).val = t.val % 16 * 16 + a.val) (h2 : (i 2).val = v.val) :
    sBlk V c t (ix3 (0 : Fin 1) a v) = sArr V c i := by
  obtain ⟨-, -, -, -, e0, e1, e2, -, -, -, -⟩ := idx_facts t
  show V c main_v4 (((cfg2.win 0).blk t).view.emb (ix3 (0 : Fin 1) a v)) = V c main_v4 i
  refine congrArg _ (funext fun ax => Fin.ext ?_)
  match ax with
  | ⟨0, _⟩ => show win2_0.index t (0 : Fin 3) * 1 + 1 * ((0 : Fin 1) : ℕ) = (i 0).val; rw [e0, h0]; simp
  | ⟨1, _⟩ => show win2_0.index t (1 : Fin 3) * 16 + 1 * a.val = (i 1).val; rw [e1, h1]; omega
  | ⟨2, _⟩ => show win2_0.index t (2 : Fin 3) * 1024 + 1 * v.val = (i 2).val; rw [e2, h2]; omega

/-- Row u, column v of the second input's block at point t is the second array at (t / 16, u, v). -/
theorem read_p (c : Dev nD) (t : Fin cfg2.N) (u : Fin 64) (v : Fin 1024) (i : S8x64x1024.Idx)
    (h0 : (i 0).val = t.val / 16) (h1 : (i 1).val = u.val) (h2 : (i 2).val = v.val) :
    pBlk V c t (ix3 (0 : Fin 1) u v) = pArr V c i := by
  obtain ⟨-, -, -, -, -, -, -, e0, e1, e2, -⟩ := idx_facts t
  show V c main_v5 (((cfg2.win 1).blk t).view.emb (ix3 (0 : Fin 1) u v)) = V c main_v5 i
  refine congrArg _ (funext fun ax => Fin.ext ?_)
  match ax with
  | ⟨0, _⟩ => show win2_1.index t (0 : Fin 3) * 1 + 1 * ((0 : Fin 1) : ℕ) = (i 0).val; rw [e0, h0]; simp
  | ⟨1, _⟩ => show win2_1.index t (1 : Fin 3) * 64 + 1 * u.val = (i 1).val; rw [e1, h1]; omega
  | ⟨2, _⟩ => show win2_1.index t (2 : Fin 3) * 1024 + 1 * v.val = (i 2).val; rw [e2, h2]; omega

/-- Column v of the bias's block at any point is the bias at v. -/
theorem read_b (c : Dev nD) (t : Fin cfg2.N) (v : Fin 1024) (i : S1024.Idx) (h0 : (i 0).val = v.val) :
    bBlk V c t (ix1 v) = bArr V c i := by
  obtain ⟨-, -, -, -, -, -, -, -, -, -, e0⟩ := idx_facts t
  show V c main_arg5 (((cfg2.win 2).blk t).view.emb (ix1 v)) = V c main_arg5 i
  refine congrArg _ (funext fun ax => Fin.ext ?_)
  match ax with
  | ⟨0, _⟩ => show win2_2.index t (0 : Fin 1) * 1024 + 1 * v.val = (i 0).val; rw [e0, h0]; omega

/-! ## What a point writes back -/

/-- The three block entries the body adds for (a, u, v) at point t are the entries the one function adds at any
    array index (t / 16, (t % 16) · 16 + a, u, v). -/
theorem block_value (c : Dev nD) (t : Fin cfg2.N) (a : Fin 16) (u : Fin 64) (v : Fin 1024) (J : S8x256x64x1024.Idx)
    (j0 : (J 0).val = t.val / 16) (j1 : (J 1).val = t.val % 16 * 16 + a.val) (j2 : (J 2).val = u.val)
    (j3 : (J 3).val = v.val) :
    (sBlk V c t (ix3 (0 : Fin 1) a v) + pBlk V c t (ix3 (0 : Fin 1) u v)) + bBlk V c t (ix1 v) = outFn V c J := by
  show _ = (sArr V c (ix3 (J 0) (J 1) (J 3)) + pArr V c (ix3 (J 0) (J 2) (J 3))) + bArr V c (ix1 (J 3))
  rw [read_s V c t a v (ix3 (J 0) (J 1) (J 3)) j0 j1 j3, read_p V c t u v (ix3 (J 0) (J 2) (J 3)) j0 j2 j3,
    read_b V c t v (ix1 (J 3)) j3]

/-- Point t writes back block t of the one function of the three arrays. -/
theorem flushed_eq (c : Dev nD) (t : Fin cfg2.N) :
    (dat2 (F := Ideal) V c).flushed 3 t = ((cfg2.win 3).blk t).view.read (Elt Ideal) (outFn V c) := by
  show (cfg2.win 3).cut (grid2.coords t) ((dat2 V c).after 3 t) = _
  rw [after2_3]
  unfold out2_3
  rw [View.canon_unit_zero hz4]
  simp only [View.ld_unit_zero (S := S1x16x1024) hz3, View.ld_unit_zero (S := S1x64x1024) hz3,
    View.ld_unit_zero (S := S1024) hz1]
  obtain ⟨e0, e1, e2, e3, -, -, -, -, -, -, -⟩ := idx_facts t
  funext j
  obtain ⟨z, a, u, v, rfl⟩ : ∃ (z : Fin 1) (a : Fin 16) (u : Fin 64) (v : Fin 1024), j = ix4 z a u v :=
    ⟨j 0, j 1, j 2, j 3, eq_ix4 j⟩
  obtain rfl : z = 0 := Subsingleton.elim _ _
  show k2_pay1 (F := Ideal) (iblk2 V c 0 t) (iblk2 V c 1 t) (iblk2 V c 2 t) (ix4 (0 : Fin 1) a u v)
    = outFn V c (((cfg2.win 3).blk t).view.emb (ix4 (0 : Fin 1) a u v))
  refine (pay_apply _ _ _ a u v).trans ?_
  have j0 : ((((cfg2.win 3).blk t).view.emb (ix4 (0 : Fin 1) a u v) : S8x256x64x1024.Idx) 0).val = t.val / 16 := by
    show win2_3.index t (0 : Fin 4) * 1 + 1 * ((0 : Fin 1) : ℕ) = _; rw [e0]; simp
  have j1 : ((((cfg2.win 3).blk t).view.emb (ix4 (0 : Fin 1) a u v) : S8x256x64x1024.Idx) 1).val = t.val % 16 * 16 + a.val := by
    show win2_3.index t (1 : Fin 4) * 16 + 1 * a.val = _; rw [e1]; omega
  have j2 : ((((cfg2.win 3).blk t).view.emb (ix4 (0 : Fin 1) a u v) : S8x256x64x1024.Idx) 2).val = u.val := by
    show win2_3.index t (2 : Fin 4) * 64 + 1 * u.val = _; rw [e2]; omega
  have j3 : ((((cfg2.win 3).blk t).view.emb (ix4 (0 : Fin 1) a u v) : S8x256x64x1024.Idx) 3).val = v.val := by
    show win2_3.index t (3 : Fin 4) * 1024 + 1 * v.val = _; rw [e3]; omega
  exact block_value V c t a u v _ j0 j1 j2 j3

/-! ## The blocks cover the array -/

/-- An index of the array is in point t's block iff each coordinate is in the block's range on its axis. -/
theorem mem_blk (t : Fin cfg2.N) (i : S8x256x64x1024.Idx) :
    i ∈ ((cfg2.win 3).blk t).view.set ↔ ∀ a : Fin 4, win2_3.index t a * S1x16x64x1024.size a ≤ (i a).val
      ∧ (i a).val < win2_3.index t a * S1x16x64x1024.size a + S1x16x64x1024.size a := by
  show i ∈ ((View.whole main_v6).slice (win2_3.rect t)).set ↔ _
  rw [View.set_slice_whole, Rect.mem_set_unit]
  exact Iff.rfl

/-- Index (b, r, u, v) is in the block of the point with coordinates (b, r / 16). -/
theorem cover (i : S8x256x64x1024.Idx) :
    ∃ t : Fin cfg2.N, (cfg2.win 3).flush t = true ∧ i ∈ ((cfg2.win 3).blk t).view.set := by
  have hN : cfg2.N = 128 := N_2
  have h0 : (i 0).val < 8 := (i 0).isLt
  have h1 : (i 1).val < 256 := (i 1).isLt
  have h2 : (i 2).val < 64 := (i 2).isLt
  have h3 : (i 3).val < 1024 := (i 3).isLt
  have ht : (i 0).val * 16 + (i 1).val / 16 < cfg2.N := by rw [hN]; omega
  obtain ⟨e0, e1, e2, e3, -, -, -, -, -, -, -⟩ := idx_facts ⟨(i 0).val * 16 + (i 1).val / 16, ht⟩
  refine ⟨⟨(i 0).val * 16 + (i 1).val / 16, ht⟩, flush2_3 _, ?_⟩
  rw [mem_blk]
  intro a
  match a with
  | ⟨0, _⟩ =>
    show win2_3.index ⟨(i 0).val * 16 + (i 1).val / 16, ht⟩ (0 : Fin 4) * 1 ≤ (i 0).val
      ∧ (i 0).val < win2_3.index ⟨(i 0).val * 16 + (i 1).val / 16, ht⟩ (0 : Fin 4) * 1 + 1
    rw [e0]; show ((i 0).val * 16 + (i 1).val / 16) / 16 * 1 ≤ _ ∧ _ < ((i 0).val * 16 + (i 1).val / 16) / 16 * 1 + 1; omega
  | ⟨1, _⟩ =>
    show win2_3.index ⟨(i 0).val * 16 + (i 1).val / 16, ht⟩ (1 : Fin 4) * 16 ≤ (i 1).val
      ∧ (i 1).val < win2_3.index ⟨(i 0).val * 16 + (i 1).val / 16, ht⟩ (1 : Fin 4) * 16 + 16
    rw [e1]; show ((i 0).val * 16 + (i 1).val / 16) % 16 * 16 ≤ _ ∧ _ < ((i 0).val * 16 + (i 1).val / 16) % 16 * 16 + 16; omega
  | ⟨2, _⟩ =>
    show win2_3.index ⟨(i 0).val * 16 + (i 1).val / 16, ht⟩ (2 : Fin 4) * 64 ≤ (i 2).val
      ∧ (i 2).val < win2_3.index ⟨(i 0).val * 16 + (i 1).val / 16, ht⟩ (2 : Fin 4) * 64 + 64
    rw [e2]; omega
  | ⟨3, _⟩ =>
    show win2_3.index ⟨(i 0).val * 16 + (i 1).val / 16, ht⟩ (3 : Fin 4) * 1024 ≤ (i 3).val
      ∧ (i 3).val < win2_3.index ⟨(i 0).val * 16 + (i 1).val / 16, ht⟩ (3 : Fin 4) * 1024 + 1024
    rw [e3]; omega

/-! ## The array after all 128 points -/

theorem final2 (c : Dev nD) :
    (dat2 (F := Ideal) V c).arrAt 3 cfg2.N
      = combine (V c main_v4) (V c main_v5) (V c main_arg5) :=
  (dat2 (F := Ideal) V c).arrAt_eq_of_cover 3 (outFn V c) (fun t _ => flushed_eq V c t) cover

end Cert.KernelIdeal.Combine

end
-- ==== Proof.Whole.lean ====
import proofs.«167541_j83133386981839_1_alg».proof.Proof.Gen.KernelIdeal.Frame
import proofs.«167541_j83133386981839_1_alg».proof.Proof.Spec
import proofs.«167541_j83133386981839_1_alg».proof.Proof.Region0
import proofs.«167541_j83133386981839_1_alg».proof.Proof.Region1
import proofs.«167541_j83133386981839_1_alg».proof.Proof.Region2
import Idealize.ShloMosaic.Lib.Pipeline.Value
import Idealize.ShloMosaic.Lib.StableHlo.Run
import Idealize.ShloMosaic.Lib.ValueIdx

set_option maxRecDepth 16384

/-!
  The kernel program from launch to return, as values.

  Before the regions the host cuts the weight matrix x4 (1024 × 1280) into its left and right halves and
  transposes each: region 0 is entered with the matrix w1[d, v] = x4[v, d] and region 1 with
  w2[d, v] = x4[v, 640 + d].  Region 0 leaves s = proj x0 w1, region 1 leaves p = proj x2 w2 (neither
  touches the other's arrays), region 2 leaves combine s p x5, and the host reshapes that [8, 256, 64, 1024]
  array to the 131072 rows of the result, row (b · 256 + t) · 64 + u.  Entry by entry that is `joint`.
-/

noncomputable section

namespace Cert.KernelIdeal.Whole

open Cert.KernelIdeal Cert.KernelIdeal.Gen Cert.Joiner
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The four float arguments as launched, at their literal types. -/
abbrev x0 (c : Dev nD) : S8x256x640.Idx → EReal := m ((c : Thread nD τ).loc main_arg0)
abbrev x2 (c : Dev nD) : S8x64x640.Idx → EReal := m ((c : Thread nD τ).loc main_arg2)
abbrev x4 (c : Dev nD) : S1024x1280.Idx → EReal := m ((c : Thread nD τ).loc main_arg4)
abbrev x5 (c : Dev nD) : S1024.Idx → EReal := m ((c : Thread nD τ).loc main_arg5)

/-! ## The host stretch before the regions -/

/-- Region 0's matrix: the transposed left half of the weights. -/
theorem entry_w1 (c : Dev nD) :
    (W1 m ρ c (Proc.devRef .tc main_v2) : S640x1024.Idx → EReal) = fun j => x4 m c (ix2 (j 1) (leftCol (j 0))) := by
  have e : (W1 m ρ c (Proc.devRef .tc main_v2) : S640x1024.Idx → EReal)
      = transpose S640x1024 [1, 0] (extractStridedSlice S1024x640 ![0, 0] (x4 m c) slices_S1024x1280_S1024x640_0_0)
          transposes_S1024x640_S640x1024_1_0 := by
    show StableHlo.after hostOps0 (W0 m ρ c) (Proc.devRef .tc main_v2) = _
    after_results
  rw [e]
  funext j
  rw [transpose_apply [1, 0] _ transposes_S1024x640_S640x1024_1_0 j (ix2 (j 1) (j 0)) (fun b => match b with
    | ⟨0, _⟩ => rfl
    | ⟨1, _⟩ => rfl)]
  exact extractStridedSlice_apply _ (x4 m c) slices_S1024x1280_S1024x640_0_0 (ix2 (j 1) (j 0)) (ix2 (j 1) (leftCol (j 0)))
    (fun a => match a with
      | ⟨0, _⟩ => by show (j 1).val = 0 + (j 1).val; omega
      | ⟨1, _⟩ => by show (j 0).val = 0 + (j 0).val; omega)

/-- Region 1's matrix: the transposed right half of the weights. -/
theorem entry_w2 (c : Dev nD) :
    (W1 m ρ c (Proc.devRef .tc main_v3) : S640x1024.Idx → EReal) = fun j => x4 m c (ix2 (j 1) (rightCol (j 0))) := by
  have e : (W1 m ρ c (Proc.devRef .tc main_v3) : S640x1024.Idx → EReal)
      = transpose S640x1024 [1, 0] (extractStridedSlice S1024x640 ![0, 640] (x4 m c) slices_S1024x1280_S1024x640_0_640)
          transposes_S1024x640_S640x1024_1_0 := by
    show StableHlo.after hostOps0 (W0 m ρ c) (Proc.devRef .tc main_v3) = _
    after_results
  rw [e]
  funext j
  rw [transpose_apply [1, 0] _ transposes_S1024x640_S640x1024_1_0 j (ix2 (j 1) (j 0)) (fun b => match b with
    | ⟨0, _⟩ => rfl
    | ⟨1, _⟩ => rfl)]
  exact extractStridedSlice_apply _ (x4 m c) slices_S1024x1280_S1024x640_0_640 (ix2 (j 1) (j 0)) (ix2 (j 1) (rightCol (j 0)))
    (fun a => match a with
      | ⟨0, _⟩ => by show (j 1).val = 0 + (j 1).val; omega
      | ⟨1, _⟩ => by show 640 + (j 0).val = 640 + (j 0).val; rfl)

/-- The host stretch writes none of the arguments. -/
theorem entry_x0 (c : Dev nD) : W1 m ρ c (Proc.devRef .tc main_arg0) = x0 m c := by
  show StableHlo.after hostOps0 (W0 m ρ c) (Proc.devRef .tc main_arg0) = _
  after_results
theorem entry_x2 (c : Dev nD) : W1 m ρ c (Proc.devRef .tc main_arg2) = x2 m c := by
  show StableHlo.after hostOps0 (W0 m ρ c) (Proc.devRef .tc main_arg2) = _
  after_results
theorem entry_x5 (c : Dev nD) : W1 m ρ c (Proc.devRef .tc main_arg5) = x5 m c := by
  show StableHlo.after hostOps0 (W0 m ρ c) (Proc.devRef .tc main_arg5) = _
  after_results

/-! ## The three regions, in order -/

/-- After region 0 its output array holds the encoder stream's product with the left half. -/
theorem s_eq (c : Dev nD) :
    (W2 m ρ c (Proc.devRef .tc main_v4) : S8x256x1024.Idx → EReal)
      = fun j => proj (x0 m c) (fun k : S640x1024.Idx => x4 m c (ix2 (k 1) (leftCol (k 0)))) (j 0) (j 1) (j 2) := by
  have h := (W2_arr m ρ c 2).trans (Stream0.final0 (V1 m ρ) c)
  have a : V1 m ρ c main_arg0 = x0 m c := entry_x0 m ρ c
  have b : (V1 m ρ c main_v2 : S640x1024.Idx → EReal) = _ := entry_w1 m ρ c
  rw [a, b] at h
  exact h

/-- After region 1 its output array holds the prediction stream's product with the right half. -/
theorem p_eq (c : Dev nD) :
    (W3 m ρ c (Proc.devRef .tc main_v5) : S8x64x1024.Idx → EReal)
      = fun j => proj (x2 m c) (fun k : S640x1024.Idx => x4 m c (ix2 (k 1) (rightCol (k 0)))) (j 0) (j 1) (j 2) := by
  have h := (W3_arr m ρ c 2).trans (Stream1.final1 (V2 m ρ) c)
  have a : V2 m ρ c main_arg2 = x2 m c := (W2_of_ne m ρ c main_arg2 (by decide)).trans (entry_x2 m ρ c)
  have b : (V2 m ρ c main_v3 : S640x1024.Idx → EReal) = _ := (W2_of_ne m ρ c main_v3 (by decide)).trans (entry_w2 m ρ c)
  rw [a, b] at h
  exact h

/-- After region 2 its output array is the combination of the two products and the bias. -/
theorem out_eq (c : Dev nD) :
    (W4 m ρ c (Proc.devRef .tc main_v6) : S8x256x64x1024.Idx → EReal)
      = combine (fun j => proj (x0 m c) (fun k : S640x1024.Idx => x4 m c (ix2 (k 1) (leftCol (k 0)))) (j 0) (j 1) (j 2))
          (fun j => proj (x2 m c) (fun k : S640x1024.Idx => x4 m c (ix2 (k 1) (rightCol (k 0)))) (j 0) (j 1) (j 2)) (x5 m c) := by
  have h := (W4_arr m ρ c 3).trans (Combine.final2 (V3 m ρ) c)
  have a : (V3 m ρ c main_v4 : S8x256x1024.Idx → EReal) = _ := (W3_of_ne m ρ c main_v4 (by decide)).trans (s_eq m ρ c)
  have b : (V3 m ρ c main_v5 : S8x64x1024.Idx → EReal) = _ := p_eq m ρ c
  have d : V3 m ρ c main_arg5 = x5 m c :=
    (W3_of_ne m ρ c main_arg5 (by decide)).trans ((W2_of_ne m ρ c main_arg5 (by decide)).trans (entry_x5 m ρ c))
  rw [a, b, d] at h
  exact h

/-! ## The reshape after the regions, and the whole -/

/-- THE RESULT BUFFER after the run is `joint` of the four float arguments. -/
theorem result_eq (c : Dev nD) :
    (W5 m ρ c (Proc.devRef .tc main_v7) : S131072x1024.Idx → EReal) = joint (x0 m c) (x2 m c) (x4 m c) (x5 m c) := by
  have e : (W5 m ρ c (Proc.devRef .tc main_v7) : S131072x1024.Idx → EReal)
      = shapeCast S131072x1024 (W4 m ρ c (Proc.devRef .tc main_v6) : S8x256x64x1024.Idx → EReal) shapeCasts_S8x256x64x1024_S131072x1024 := by
    show StableHlo.after hostOps3 (W4 m ρ c) (Proc.devRef .tc main_v7) = _
    after_results
    rfl
  rw [e, out_eq]
  funext i
  have h0 : (i 0).val < 131072 := (i 0).isLt
  have h1 : (i 1).val < 1024 := (i 1).isLt
  rw [shapeCast_apply _ shapeCasts_S8x256x64x1024_S131072x1024 i (ix4 (rowB (i 0)) (rowT (i 0)) (rowU (i 0)) (i 1)) (by
    rw [Shape.rowMajor_val_four, Shape.rowMajor_val_two]
    show (((i 0).val / 16384 * 256 + (i 0).val / 64 % 256) * 64 + (i 0).val % 64) * 1024 + (i 1).val = (i 0).val * 1024 + (i 1).val
    omega)]
  rfl

end Cert.KernelIdeal.Whole

end
-- ==== Proof.RefValue.lean ====
import proofs.«167541_j83133386981839_1_alg».proof.Proof.Gen.ReferenceIdeal.Run
import proofs.«167541_j83133386981839_1_alg».proof.Proof.Gen.ReferenceIdeal.Read
import proofs.«167541_j83133386981839_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read Cert.Joiner
open Idealize.ShloMosaic Idealize.ShloMosaic.TcCoe Idealize.ShloMosaic.ValueIdx Idealize.SL.Sem

/-- A sum over 1280 columns is the sum over the first 640 columns plus the sum over the last 640. -/
theorem sum_halves {M : Type*} [AddCommMonoid M] (g : Fin 1280 → M) :
    ∑ k : Fin 1280, g k = (∑ d : Fin 640, g (leftCol d)) + ∑ d : Fin 640, g (rightCol d) := by
  have h := Fin.sum_univ_add (M := M) (a := 640) (b := 640) (fun k => g k)
  refine h.trans ?_
  congr 1

/-- The concatenation at flat position (r, d), d in the left half: the broadcast encoder stream at
    (b, t, u, d), where r = (b · 256 + t) · 64 + u. -/
theorem v4_left (x0 : (⟨S8x256x640, .f32⟩ : BufTy).Contents (Elt Ideal)) (x2 : (⟨S8x64x640, .f32⟩ : BufTy).Contents (Elt Ideal))
    (r : Fin 131072) (d : Fin 640) :
    val_main_v4 (F := Ideal) x0 x2 (idx_main_v5 (ix2 r (leftCol d)))
      = val_main_v1 (F := Ideal) x0 (ix4 (rowB r) (rowT r) (rowU r) d) := by
  unfold val_main_v4
  refine concatenate_pair_apply_left (t := S8x256x64x1280) (s₁ := S8x256x64x640) (s₂ := S8x256x64x640) 3 _ _
    concatenates_S8x256x64x640_S8x256x64x640_S8x256x64x1280_d3 _ rfl _ (fun b => ?_)
  have hr := r.isLt
  have hd := d.isLt
  match b with
  | ⟨0, _⟩ => show r.val / 16384 = (r.val * 1280 + d.val) / 20971520; omega
  | ⟨1, _⟩ => show r.val / 64 % 256 = (r.val * 1280 + d.val) / 81920 % 256; omega
  | ⟨2, _⟩ => show r.val % 64 = (r.val * 1280 + d.val) / 1280 % 64; omega
  | ⟨3, _⟩ => show d.val = (r.val * 1280 + d.val) % 1280; omega

/-- The same in the right half: the broadcast prediction stream at (b, t, u, d). -/
theorem v4_right (x0 : (⟨S8x256x640, .f32⟩ : BufTy).Contents (Elt Ideal)) (x2 : (⟨S8x64x640, .f32⟩ : BufTy).Contents (Elt Ideal))
    (r : Fin 131072) (d : Fin 640) :
    val_main_v4 (F := Ideal) x0 x2 (idx_main_v5 (ix2 r (rightCol d)))
      = val_main_v3 (F := Ideal) x2 (ix4 (rowB r) (rowT r) (rowU r) d) := by
  unfold val_main_v4
  have hr := r.isLt
  have hd := d.isLt
  refine concatenate_pair_apply_right (t := S8x256x64x1280) (s₁ := S8x256x64x640) (s₂ := S8x256x64x640) 3 _ _
    concatenates_S8x256x64x640_S8x256x64x640_S8x256x64x1280_d3 _ rfl rfl _ (fun b hb => ?_) ?_
  · match b with
    | ⟨0, _⟩ => show r.val / 16384 = (r.val * 1280 + (640 + d.val)) / 20971520; omega
    | ⟨1, _⟩ => show r.val / 64 % 256 = (r.val * 1280 + (640 + d.val)) / 81920 % 256; omega
    | ⟨2, _⟩ => show r.val % 64 = (r.val * 1280 + (640 + d.val)) / 1280 % 64; omega
    | ⟨3, _⟩ => exact absurd rfl hb
  · show d.val + 640 = (r.val * 1280 + (640 + d.val)) % 1280; omega

/-- The rectified operand at row r and a column of the left half: the encoder stream's entry (b, t, d),
    rectified. -/
theorem v6_left (x0 : (⟨S8x256x640, .f32⟩ : BufTy).Contents (Elt Ideal)) (x2 : (⟨S8x64x640, .f32⟩ : BufTy).Contents (Elt Ideal))
    (r : Fin 131072) (d : Fin 640) :
    val_main_v6 (F := Ideal) x0 x2 (ix2 r (leftCol d)) = relu (x0 (ix3 (rowB r) (rowT r) d)) := by
  have e : idx_main_v0 (idx_main_v1 (ix4 (rowB r) (rowT r) (rowU r) d)) = ix3 (rowB r) (rowT r) d :=
    funext fun a => Fin.ext (by
      match a with
      | ⟨0, _⟩ => rfl
      | ⟨1, _⟩ => rfl
      | ⟨2, _⟩ => rfl)
  rw [val_main_v6_apply, val_main_call0_v0_apply, val_main_call0_cst_apply, val_main_v5_apply, v4_left,
    val_main_v1_apply, val_main_v0_apply, e]
  rfl

/-- The rectified operand at row r and a column of the right half: the prediction stream's entry (b, u, d),
    rectified. -/
theorem v6_right (x0 : (⟨S8x256x640, .f32⟩ : BufTy).Contents (Elt Ideal)) (x2 : (⟨S8x64x640, .f32⟩ : BufTy).Contents (Elt Ideal))
    (r : Fin 131072) (d : Fin 640) :
    val_main_v6 (F := Ideal) x0 x2 (ix2 r (rightCol d)) = relu (x2 (ix3 (rowB r) (rowU r) d)) := by
  have e : idx_main_v2 (idx_main_v3 (ix4 (rowB r) (rowT r) (rowU r) d)) = ix3 (rowB r) (rowU r) d :=
    funext fun a => Fin.ext (by
      match a with
      | ⟨0, _⟩ => rfl
      | ⟨1, _⟩ => rfl
      | ⟨2, _⟩ => rfl)
  rw [val_main_v6_apply, val_main_call0_v0_apply, val_main_call0_cst_apply, val_main_v5_apply, v4_right,
    val_main_v3_apply, val_main_v2_apply, e]
  rfl

theorem ref_eq_joint (x0 : (⟨S8x256x640, .f32⟩ : BufTy).Contents (Elt Ideal)) (x2 : (⟨S8x64x640, .f32⟩ : BufTy).Contents (Elt Ideal))
    (x4 : (⟨S1024x1280, .f32⟩ : BufTy).Contents (Elt Ideal)) (x5 : (⟨S1024, .f32⟩ : BufTy).Contents (Elt Ideal)) :
    val_main_v11 (F := Ideal) x0 x2 x4 x5 = joint x0 x2 x4 x5 := by
  funext i
  obtain ⟨r, v, rfl⟩ : ∃ (r : Fin 131072) (v : Fin 1024), i = ix2 r v := ⟨i 0, i 1, eq_ix2 i⟩
  -- the two index functions of the contraction, and the bias's, in coordinates
  have el : ∀ k : Fin 1280, lidx_main_v8 (ix2 r v) k = ix2 r k := fun k =>
    funext fun a => Fin.ext (by
      match a with
      | ⟨0, _⟩ => rfl
      | ⟨1, _⟩ => rfl)
  have er : ∀ k : Fin 1280, idx_main_v7 (ridx_main_v8 (ix2 r v) k) = ix2 v k := fun k =>
    funext fun a => Fin.ext (by
      match a with
      | ⟨0, _⟩ => rfl
      | ⟨1, _⟩ => rfl)
  have eb : idx_main_v9 (idx_main_v10 (ix2 r v)) = ix1 v :=
    funext fun a => Fin.ext (by
      match a with
      | ⟨0, _⟩ => rfl)
  rw [val_main_v11_apply, val_main_v8_apply, val_main_v10_apply, val_main_v9_apply, eb, sum_halves]
  simp only [el, val_main_v7_apply, er, v6_left, v6_right]
  rfl

end Cert.ReferenceIdeal.RefValue

end
-- ==== Proof.lean ====
/-
  The joiner of a transducer, three pallas_calls against one matrix product.

  The reference concatenates each encoder vector x0[b, t, :] with each prediction vector x2[b, u, :] (640 + 640
  numbers), takes max(·, 0) of the 1280 numbers, multiplies by the transposed weights x4 (1024 × 1280) and adds
  the bias x5: 131072 rows of 1024.  The kernel never builds the concatenation.  It multiplies max(x0, 0) by the
  left half of the weights once per (b, t), max(x2, 0) by the right half once per (b, u), and a third call adds
  the two partial products and the bias at every (b, t, u).  On the extended reals the two are the same
  function: max(·, 0) acts entry by entry, a change of float format is the identity, and a sum over 1280 terms
  is the sum over the first 640 plus the sum over the last 640 (addition on the extended reals is commutative
  and associative; no finiteness is needed, so the precondition is never opened).  `Cert.Joiner.joint` is that
  function; Proof/Whole.lean shows the kernel program's result buffer ends holding it, Proof/RefValue.lean that
  the reference's does.  No operation of the kernel was rewritten by the ideal pass, so `preserves` is trivial.
-/
import proofs.«167541_j83133386981839_1_alg».proof.Defs
import proofs.«167541_j83133386981839_1_alg».proof.Proof.Gen.Kernel
import proofs.«167541_j83133386981839_1_alg».proof.Proof.Gen.Kernel.Skeleton
import proofs.«167541_j83133386981839_1_alg».proof.Proof.Gen.Kernel.Launch
import proofs.«167541_j83133386981839_1_alg».proof.Proof.Gen.Kernel.Points
import proofs.«167541_j83133386981839_1_alg».proof.Proof.Gen.Kernel.Frame
import proofs.«167541_j83133386981839_1_alg».proof.Proof.Gen.KernelIdeal
import proofs.«167541_j83133386981839_1_alg».proof.Proof.Gen.KernelIdeal.Skeleton
import proofs.«167541_j83133386981839_1_alg».proof.Proof.Gen.KernelIdeal.Launch
import proofs.«167541_j83133386981839_1_alg».proof.Proof.Gen.KernelIdeal.Points
import proofs.«167541_j83133386981839_1_alg».proof.Proof.Gen.KernelIdeal.Frame
import proofs.«167541_j83133386981839_1_alg».proof.Proof.Gen.ReferenceIdeal
import proofs.«167541_j83133386981839_1_alg».proof.Proof.Gen.ReferenceIdeal.Run
import proofs.«167541_j83133386981839_1_alg».proof.Proof.Gen.ReferenceIdeal.Read
import proofs.«167541_j83133386981839_1_alg».proof.Proof.Gen.Pre_finite_inputs
import proofs.«167541_j83133386981839_1_alg».proof.Proof.KernelRun
import proofs.«167541_j83133386981839_1_alg».proof.Proof.Whole
import proofs.«167541_j83133386981839_1_alg».proof.Proof.RefValue
import Idealize.ShloMosaic.Adequacy
import Idealize.ShloMosaic.Init

noncomputable section

namespace Cert.Proof

open Idealize.ShloMosaic Idealize.ShloMosaic.TcCoe Idealize.SL.Sem Cert.Joiner

/-- The kernel program at the ideal values: every weakly fair execution terminates with the result buffer at
    `joint` of the four float arguments, the two integer arguments returned as they are, and every argument
    unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v7)
            = joint (Cert.KernelIdeal.Whole.x0 m c) (Cert.KernelIdeal.Whole.x2 m c) (Cert.KernelIdeal.Whole.x4 m c) (Cert.KernelIdeal.Whole.x5 m c)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run (Cert.KernelIdeal.defs (F := Ideal)) _ _).mono
    (fun r h c => ⟨(h c).1.trans (Cert.KernelIdeal.Whole.result_eq m ρ c), (h c).2.2.1, (h c).2.2.2.2.1, (h c).2⟩)
    (Cert.KernelIdeal.Gen.run_named (F := Ideal) m ρ)

theorem frame_kernel : Cert.frame_Kernel := fun m ρ _ => Cert.Kernel.Gen.frame m ρ
theorem frame_kernelIdeal : Cert.frame_KernelIdeal := fun m ρ _ => Cert.KernelIdeal.Gen.frame m ρ
/-- The reference has no kernel: its frame is its run with the result dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both programs end with `joint` of the arguments in the result buffer, from memories that agree on the
    arguments; the two integer arguments are returned untouched by both. -/
theorem algebraic : Cert.algebraic_KernelIdeal_ReferenceIdeal := by
  intro m ρ m' ρ' _ hagree
  refine ⟨_, _, _, kernel_run m ρ, ?_⟩
  refine (θ_run Cert.ReferenceIdeal.defs _ _).mono (fun _ h c => ⟨?_, (h c).2.1.trans (hagree c).2.1,
    (h c).2.2.1.trans (hagree c).2.2.2.1, (h c).2.2.2⟩) (Cert.ReferenceIdeal.Value.run (F := Ideal) m' ρ')
  refine (h c).1.trans ((Cert.ReferenceIdeal.Read.val_main_v11_eq _ _ _ _).trans
    ((Cert.ReferenceIdeal.RefValue.ref_eq_joint _ _ _ _).trans ?_))
  rw [(hagree c).1, (hagree c).2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
